-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x80 : Shape := ⟨2, ![100000, 80]⟩
abbrev S1000000 : Shape := ⟨1, ![1000000]⟩
abbrev S80x40 : Shape := ⟨2, ![80, 40]⟩
abbrev S_ : Shape := ⟨0, ![]⟩

class Facts : Prop where
  bcast_S_S100000x80 : S_.BroadcastsInDim S100000x80 (![] : Fin 0 → Fin S100000x80.rank)
  reducesTo_S100000x80_S_d0_1 : S100000x80.ReducesTo [0, 1] S_
  h_S_ : 0 < S_.numel
  bcast_S_S80x40 : S_.BroadcastsInDim S80x40 (![] : Fin 0 → Fin S80x40.rank)
  reducesTo_S80x40_S_d0_1 : S80x40.ReducesTo [0, 1] S_

variable [Facts]

def fn {F : FTy → Type} [FloatOps F] (main_arg0 : FVec F S100000x80 .f32) (main_arg1 : IVec S1000000 32) (main_arg2 : IVec S1000000 32) (main_arg3 : FVec F S80x40 .f32) : IVec S_ 1 :=
  let main_v0 : FVec F S100000x80 .f32 := Host.absf main_arg0
  let main_cst : FVec F S_ .f32 := constant S_ .f32 0x7F800000#32
  let main_v1 : FVec F S100000x80 .f32 := broadcastInDim S100000x80 ![] bcast_S_S100000x80 main_cst
  let main_v2 : IVec S100000x80 1 := cmpf .olt main_v0 main_v1
  let main_c : IVec S_ 1 := constantI S_ 1 1#1
  let main_v3 : IVec S_ 1 := (fun x v => Host.reduce IntOp.andi x v reducesTo_S100000x80_S_d0_1 h_S_) main_v2 main_c
  let main_v4 : FVec F S80x40 .f32 := Host.absf main_arg3
  let main_cst_0 : FVec F S_ .f32 := constant S_ .f32 0x7F800000#32
  let main_v5 : FVec F S80x40 .f32 := broadcastInDim S80x40 ![] bcast_S_S80x40 main_cst_0
  let main_v6 : IVec S80x40 1 := cmpf .olt main_v4 main_v5
  let main_c_1 : IVec S_ 1 := constantI S_ 1 1#1
  let main_v7 : IVec S_ 1 := (fun x v => Host.reduce IntOp.andi x v reducesTo_S80x40_S_d0_1 h_S_) main_v6 main_c_1
  let main_v8 : IVec S_ 1 := andi main_v3 main_v7
  main_v8
-- ==== Kernel.lean ====
abbrev S100000x80 : Shape := ⟨2, ![100000, 80]⟩
abbrev S1000000 : Shape := ⟨1, ![1000000]⟩
abbrev S80x40 : Shape := ⟨2, ![80, 40]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S20000x80 : Shape := ⟨2, ![20000, 80]⟩
abbrev S20000x1 : Shape := ⟨2, ![20000, 1]⟩
abbrev S1100000x80 : Shape := ⟨2, ![1100000, 80]⟩
abbrev S100000x40 : Shape := ⟨2, ![100000, 40]⟩
abbrev S20000x40 : Shape := ⟨2, ![20000, 40]⟩

abbrev nBuf : Space → Nat
  | .hbm => 57
  | .vmem => 19
  | .smem => 0
  | _ => 0

abbrev bufTy : (tb : Table) → Fin (tcTables nBuf tb) → BufTy
  | .hbm, ⟨0, _⟩ => ⟨S100000x80, .f32⟩
  | .hbm, ⟨1, _⟩ => ⟨S1000000, .i32⟩
  | .hbm, ⟨2, _⟩ => ⟨S1000000, .i32⟩
  | .hbm, ⟨3, _⟩ => ⟨S80x40, .f32⟩
  | .hbm, ⟨4, _⟩ => ⟨S100000, .i32⟩
  | .hbm, ⟨5, _⟩ => ⟨S1100000, .i32⟩
  | .hbm, ⟨6, _⟩ => ⟨S1100000, .i32⟩
  | .hbm, ⟨7, _⟩ => ⟨S_, .f32⟩
  | .hbm, ⟨8, _⟩ => ⟨S1100000, .f32⟩
  | .hbm, ⟨9, _⟩ => ⟨S_, .f32⟩
  | .hbm, ⟨10, _⟩ => ⟨S100000, .f32⟩
  | .hbm, ⟨11, _⟩ => ⟨S1100000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1100000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x1, .f32⟩
  | .hbm, ⟨28, _⟩ => ⟨S100000x80, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000x80, .f32⟩
  | .hbm, ⟨38, _⟩ => ⟨S_, .f32⟩
  | .hbm, ⟨39, _⟩ => ⟨S100000x80, .f32⟩
  | .hbm, ⟨40, _⟩ => ⟨S1100000x1, .i32⟩
  | .hbm, ⟨41, _⟩ => ⟨S100000x80, .f32⟩
  | .hbm, ⟨42, _⟩ => ⟨S100000x80, .f32⟩
  | .hbm, ⟨43, _⟩ => ⟨S_, .i32⟩
  | .hbm, ⟨44, _⟩ => ⟨S1100000, .i32⟩
  | .hbm, ⟨45, _⟩ => ⟨S1100000, .i1⟩
  | .hbm, ⟨46, _⟩ => ⟨S_, .i32⟩
  | .hbm, ⟨47, _⟩ => ⟨S1100000, .i32⟩
  | .hbm, ⟨48, _⟩ => ⟨S1100000, .i32⟩
  | .hbm, ⟨49, _⟩ => ⟨S1100000, .i32⟩
  | .hbm, ⟨50, _⟩ => ⟨S1100000x1, .i32⟩
  | .hbm, ⟨51, _⟩ => ⟨S1100000x80, .f32⟩
  | .hbm, ⟨52, _⟩ => ⟨S_, .f32⟩
  | .hbm, ⟨53, _⟩ => ⟨S100000x80, .f32⟩
  | .hbm, ⟨54, _⟩ => ⟨S1100000x1, .i32⟩
  | .hbm, ⟨55, _⟩ => ⟨S100000x80, .f32⟩
  | .hbm, ⟨56, _⟩ => ⟨S100000x40, .f32⟩
  | .local _ .vmem, ⟨0, _⟩ => ⟨S20000x80, .f32⟩
  | .local _ .vmem, ⟨1, _⟩ => ⟨S20000x80, .f32⟩
  | .local _ .vmem, ⟨2, _⟩ => ⟨S20000x1, .f32⟩
  | .local _ .vmem, ⟨3, _⟩ => ⟨S20000x1, .f32⟩
  | .local _ .vmem, ⟨4, _⟩ => ⟨S20000x80, .f32⟩
  | .local _ .vmem, ⟨5, _⟩ => ⟨S20000x80, .f32⟩
  | .local _ .vmem, ⟨6, _⟩ => ⟨S20000x80, .f32⟩
  | .local _ .vmem, ⟨7, _⟩ => ⟨S20000x80, .f32⟩
  | .local _ .vmem, ⟨8, _⟩ => ⟨S20000x1, .f32⟩
  | .local _ .vmem, ⟨9, _⟩ => ⟨S20000x1, .f32⟩
  | .local _ .vmem, ⟨10, _⟩ => ⟨S20000x80, .f32⟩
  | .local _ .vmem, ⟨11, _⟩ => ⟨S20000x80, .f32⟩
  | .local _ .vmem, ⟨12, _⟩ => ⟨S20000x80, .f32⟩
  | .local _ .vmem, ⟨13, _⟩ => ⟨S20000x80, .f32⟩
  | .local _ .vmem, ⟨14, _⟩ => ⟨S20000x1, .f32⟩
  | .local _ .vmem, ⟨15, _⟩ => ⟨S20000x1, .f32⟩
  | .local _ .vmem, ⟨16, _⟩ => ⟨S80x40, .f32⟩
  | .local _ .vmem, ⟨17, _⟩ => ⟨S20000x40, .f32⟩
  | .local _ .vmem, ⟨18, _⟩ => ⟨S20000x40, .f32⟩
  | _, _ => ⟨S100000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S80x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  shapeCasts_S100000_S100000x1 : S100000.ShapeCasts S100000x1
  inb_S20000x80_S20000x80_0_0 : ∀ a, (![0, 0] : Fin 2 → Nat) a + S20000x80.size a ≤ S20000x80.size a
  h_S20000x80 : 0 < S20000x80.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x80 : S20000x1.Broadcasts S20000x80
  bcast_S_S100000x80 : S_.BroadcastsInDim S100000x80 (![] : Fin 0 → Fin S100000x80.rank)
  shapeCasts_S20000x80_S20000x80 : S20000x80.ShapeCasts S20000x80
  bitsLt_bf16_f32 : FTy.bits .bf16 < FTy.bits .f32
  inb_S80x40_S80x40_0_0 : ∀ a, (![0, 0] : Fin 2 → Nat) a + S80x40.size a ≤ S80x40.size a
  h_S80x40 : 0 < S80x40.numel
  inb_S20000x40_S20000x40_0_0 : ∀ a, (![0, 0] : Fin 2 → Nat) a + S20000x40.size a ≤ S20000x40.size a
  h_S20000x40 : 0 < S20000x40.numel
  scatter_S100000_S1100000x1_S1100000_n_0_0_1_wf : ScatterDims.WF S100000 S1100000x1 S1100000 [] [0] [0] 1
  gather_S100000x80_S1100000x1_S1100000x80_1_0_n_n_0_1_180_wf : GatherDims.WF S100000x80 S1100000x1 S1100000x80 [1] [0] [] [0] [] 1 ![1, 80]
  scatter_S100000x80_S1100000x1_S1100000x80_1_0_0_1_wf : ScatterDims.WF S100000x80 S1100000x1 S1100000x80 [1] [0] [0] 1
  dot_S20000x80_S80x40_S20000x40_1_0_0_1_n_n_wf : DotDims.WF S20000x80 S80x40 S20000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x80.size a ≤ S100000x80.size a
  hwx0_0 : ∀ i : grid0.Coords, EltTy.bits .f32 = 32 ∨ (Rect.block (s := S100000x80) S20000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S100000x1.size a
  hwx0_1 : ∀ i : grid0.Coords, EltTy.bits .f32 = 32 ∨ (Rect.block (s := S100000x1) S20000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x80.size a ≤ S100000x80.size a
  hwx0_2 : ∀ i : grid0.Coords, EltTy.bits .f32 = 32 ∨ (Rect.block (s := S100000x80) S20000x80.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x80.size a ≤ S100000x80.size a
  hwx1_0 : ∀ i : grid1.Coords, EltTy.bits .f32 = 32 ∨ (Rect.block (s := S100000x80) S20000x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x1.size a ≤ S100000x1.size a
  hwx1_1 : ∀ i : grid1.Coords, EltTy.bits .f32 = 32 ∨ (Rect.block (s := S100000x1) S20000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x80.size a ≤ S100000x80.size a
  hwx1_2 : ∀ i : grid1.Coords, EltTy.bits .f32 = 32 ∨ (Rect.block (s := S100000x80) S20000x80.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x80.size a ≤ S100000x80.size a
  hwx2_0 : ∀ i : grid2.Coords, EltTy.bits .f32 = 32 ∨ (Rect.block (s := S100000x80) S20000x80.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x1.size a ≤ S100000x1.size a
  hwx2_1 : ∀ i : grid2.Coords, EltTy.bits .f32 = 32 ∨ (Rect.block (s := S100000x1) S20000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S80x40.size a ≤ S80x40.size a
  hwx2_2 : ∀ i : grid2.Coords, EltTy.bits .f32 = 32 ∨ (Rect.block (s := S80x40) S80x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x40.size a ≤ S100000x40.size a
  hwx2_3 : ∀ i : grid2.Coords, EltTy.bits .f32 = 32 ∨ (Rect.block (s := S100000x40) S20000x40.size (cc2_transform_3 i) (hinb2_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000x80_S1100000x1_S1100000x80_1_0_n_n_0_1_180 : GatherDims S100000x80 S1100000x1 S1100000x80 where
  offsetDims := [1]
  collapsedSliceDims := [0]
  operandBatchingDims := []
  startIndicesBatchingDims := []
  startIndexMap := [0]
  indexVectorDim := 1
  sliceSizes := ![1, 80]
  wf := gather_S100000x80_S1100000x1_S1100000x80_1_0_n_n_0_1_180_wf
def scatter_S100000x80_S1100000x1_S1100000x80_1_0_0_1 : ScatterDims S100000x80 S1100000x1 S1100000x80 where
  updateWindowDims := [1]
  insertedWindowDims := [0]
  scatterDimsToOperandDims := [0]
  indexVectorDim := 1
  wf := scatter_S100000x80_S1100000x1_S1100000x80_1_0_0_1_wf
def dot_S20000x80_S80x40_S20000x40_1_0_0_1_n_n : DotDims S20000x80 S80x40 S20000x40 where
  lhsContracting := [1]
  rhsContracting := [0]
  lhsNonContracting := [0]
  rhsNonContracting := [1]
  lhsBatch := []
  rhsBatch := []
  wf := dot_S20000x80_S80x40_S20000x40_1_0_0_1_n_n_wf

abbrev win0_0 : Pipeline.Window sig grid0 :=
  Pipeline.Window.ofSpec (Memref.whole main_arg0) S20000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S20000x80.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S20000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S20000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S20000x80.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S20000x80.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S20000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S80x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S20000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x80 : Shape := ⟨2, ![100000, 80]⟩
abbrev S1000000 : Shape := ⟨1, ![1000000]⟩
abbrev S80x40 : Shape := ⟨2, ![80, 40]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S1100000x80 : Shape := ⟨2, ![1100000, 80]⟩
abbrev S100000x40 : Shape := ⟨2, ![100000, 40]⟩

abbrev nBuf : Space → Nat
  | .hbm => 85
  | .vmem => 0
  | .smem => 0
  | _ => 0

abbrev bufTy : (tb : Table) → Fin (tcTables nBuf tb) → BufTy
  | .hbm, ⟨0, _⟩ => ⟨S100000x80, .f32⟩
  | .hbm, ⟨1, _⟩ => ⟨S1000000, .i32⟩
  | .hbm, ⟨2, _⟩ => ⟨S1000000, .i32⟩
  | .hbm, ⟨3, _⟩ => ⟨S80x40, .f32⟩
  | .hbm, ⟨4, _⟩ => ⟨S100000, .i32⟩
  | .hbm, ⟨5, _⟩ => ⟨S1100000, .i32⟩
  | .hbm, ⟨6, _⟩ => ⟨S1100000, .i32⟩
  | .hbm, ⟨7, _⟩ => ⟨S_, .f32⟩
  | .hbm, ⟨8, _⟩ => ⟨S1100000, .f32⟩
  | .hbm, ⟨9, _⟩ => ⟨S_, .f32⟩
  | .hbm, ⟨10, _⟩ => ⟨S100000, .f32⟩
  | .hbm, ⟨11, _⟩ => ⟨S1100000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1100000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x80, .f32⟩
  | .hbm, ⟨23, _⟩ => ⟨S100000x80, .f32⟩
  | .hbm, ⟨24, _⟩ => ⟨S_, .i32⟩
  | .hbm, ⟨25, _⟩ => ⟨S1100000, .i32⟩
  | .hbm, ⟨26, _⟩ => ⟨S1100000, .i1⟩
  | .hbm, ⟨27, _⟩ => ⟨S_, .i32⟩
  | .hbm, ⟨28, _⟩ => ⟨S1100000, .i32⟩
  | .hbm, ⟨29, _⟩ => ⟨S1100000, .i32⟩
  | .hbm, ⟨30, _⟩ => ⟨S1100000, .i32⟩
  | .hbm, ⟨31, _⟩ => ⟨S1100000x1, .i32⟩
  | .hbm, ⟨32, _⟩ => ⟨S1100000x80, .f32⟩
  | .hbm, ⟨33, _⟩ => ⟨S_, .f32⟩
  | .hbm, ⟨34, _⟩ => ⟨S100000x80, .f32⟩
  | .hbm, ⟨35, _⟩ => ⟨S1100000x1, .i32⟩
  | .hbm, ⟨36, _⟩ => ⟨S100000x80, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x80, .f32⟩
  | .hbm, ⟨43, _⟩ => ⟨S100000x80, .f32⟩
  | .hbm, ⟨44, _⟩ => ⟨S100000, .i32⟩
  | .hbm, ⟨45, _⟩ => ⟨S1100000, .i32⟩
  | .hbm, ⟨46, _⟩ => ⟨S1100000, .i32⟩
  | .hbm, ⟨47, _⟩ => ⟨S_, .f32⟩
  | .hbm, ⟨48, _⟩ => ⟨S1100000, .f32⟩
  | .hbm, ⟨49, _⟩ => ⟨S_, .f32⟩
  | .hbm, ⟨50, _⟩ => ⟨S100000, .f32⟩
  | .hbm, ⟨51, _⟩ => ⟨S1100000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S1100000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x80, .f32⟩
  | .hbm, ⟨63, _⟩ => ⟨S100000x80, .f32⟩
  | .hbm, ⟨64, _⟩ => ⟨S_, .i32⟩
  | .hbm, ⟨65, _⟩ => ⟨S1100000, .i32⟩
  | .hbm, ⟨66, _⟩ => ⟨S1100000, .i1⟩
  | .hbm, ⟨67, _⟩ => ⟨S_, .i32⟩
  | .hbm, ⟨68, _⟩ => ⟨S1100000, .i32⟩
  | .hbm, ⟨69, _⟩ => ⟨S1100000, .i32⟩
  | .hbm, ⟨70, _⟩ => ⟨S1100000, .i32⟩
  | .hbm, ⟨71, _⟩ => ⟨S1100000x1, .i32⟩
  | .hbm, ⟨72, _⟩ => ⟨S1100000x80, .f32⟩
  | .hbm, ⟨73, _⟩ => ⟨S_, .f32⟩
  | .hbm, ⟨74, _⟩ => ⟨S100000x80, .f32⟩
  | .hbm, ⟨75, _⟩ => ⟨S1100000x1, .i32⟩
  | .hbm, ⟨76, _⟩ => ⟨S100000x80, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x80, .f32⟩
  | .hbm, ⟨83, _⟩ => ⟨S100000x80, .f32⟩
  | .hbm, ⟨84, _⟩ => ⟨S100000x40, .f32⟩
  | _, _ => ⟨S100000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S100000_S100000x1_0 : S100000.BroadcastsInDim S100000x1 (![0] : Fin 1 → Fin S100000x1.rank)
  bcast_S100000x1_S100000x80_0_1 : S100000x1.BroadcastsInDim S100000x80 (![0, 1] : Fin 2 → Fin S100000x80.rank)
  bcast_S_S100000x80 : S_.BroadcastsInDim S100000x80 (![] : Fin 0 → Fin S100000x80.rank)
  scatter_S100000_S1100000x1_S1100000_n_0_0_1_wf : ScatterDims.WF S100000 S1100000x1 S1100000 [] [0] [0] 1
  gather_S100000x80_S1100000x1_S1100000x80_1_0_n_n_0_1_180_wf : GatherDims.WF S100000x80 S1100000x1 S1100000x80 [1] [0] [] [0] [] 1 ![1, 80]
  scatter_S100000x80_S1100000x1_S1100000x80_1_0_0_1_wf : ScatterDims.WF S100000x80 S1100000x1 S1100000x80 [1] [0] [0] 1
  dot_S100000x80_S80x40_S100000x40_1_0_0_1_n_n_wf : DotDims.WF S100000x80 S80x40 S100000x40 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000x80_S1100000x1_S1100000x80_1_0_n_n_0_1_180 : GatherDims S100000x80 S1100000x1 S1100000x80 where
  offsetDims := [1]
  collapsedSliceDims := [0]
  operandBatchingDims := []
  startIndicesBatchingDims := []
  startIndexMap := [0]
  indexVectorDim := 1
  sliceSizes := ![1, 80]
  wf := gather_S100000x80_S1100000x1_S1100000x80_1_0_n_n_0_1_180_wf
def scatter_S100000x80_S1100000x1_S1100000x80_1_0_0_1 : ScatterDims S100000x80 S1100000x1 S1100000x80 where
  updateWindowDims := [1]
  insertedWindowDims := [0]
  scatterDimsToOperandDims := [0]
  indexVectorDim := 1
  wf := scatter_S100000x80_S1100000x1_S1100000x80_1_0_0_1_wf
def dot_S100000x80_S80x40_S100000x40_1_0_0_1_n_n : DotDims S100000x80 S80x40 S100000x40 where
  lhsContracting := [1]
  rhsContracting := [0]
  lhsNonContracting := [0]
  rhsNonContracting := [1]
  lhsBatch := []
  rhsBatch := []
  wf := dot_S100000x80_S80x40_S100000x40_1_0_0_1_n_n_wf

class Facts : Prop extends Facts₀ where

variable [Facts]
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibScaledRows.lean ====
/-
  Rows scaled by a column and then multiplied by a matrix, read at an index at the ideal values.

  Let X be an a×k matrix, v a column of a entries and W a k×n matrix. Scaling row p of X by v(p) and multiplying by W
  gives, at (p, q), the sum over l of (X(p, l)·v(p))·W(l, q). A kernel spells the scaling with a column broadcast
  along the rows and rounds both operands to a narrower format before the product into a zero accumulator; at the
  ideal values a change of format is the identity, so the rounding drops out. The host spells the scaling with a
  broadcast in dimensions [0, 1] and takes the product directly. Both read the same sum.

  A column [a, 1] laid along axes 0 and 1 of an [a, b] matrix repeats entry p along row p.
-/
import Idealize.ShloMosaic.PureOps.Ideal.Laws
import Idealize.ShloMosaic.Lib.ValueIdx
import Idealize.ShloMosaic.Lib.Pipeline.Value
import proofs.«122123_j17394617548983_1_alg».proof.Proof.LibDenseLayer
import proofs.«122123_j17394617548983_1_alg».proof.Proof.LibRowOps

noncomputable section

namespace Idealize.ShloMosaic.ScaledRows

open Idealize.ShloMosaic Idealize.ShloMosaic.ValueIdx

/-- An `[a, 1]` column laid along axes 0 and 1 of `[a, b]` reads, at `(p, c)`, the column's entry `p`. -/
theorem broadcastInDim_a1_ab_apply {α : Type} {a b : ℕ}
    (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

variable {a k n : ℕ}

/-- The kernel's spelling: rows scaled by a broadcast column, both operands rounded, the product into the zero
    accumulator, read at `(p, q)`. -/
theorem matmul_scaled_apply {ψ : FTy}
    (w : DotDims.WF ⟨2, ![a, k]⟩ ⟨2, ![k, n]⟩ ⟨2, ![a, n]⟩ [1] [0] [0] [1] [] [])
    (prec : Option ContractPrecision)
    (X : FVec Ideal ⟨2, ![a, k]⟩ .f32) (v : FVec Ideal ⟨2, ![a, 1]⟩ .f32) (W : FVec Ideal ⟨2, ![k, n]⟩ .f32)
    (h1 : (⟨2, ![a, 1]⟩ : Shape).ShapeCasts ⟨2, ![a, 1]⟩) (h2 : (⟨2, ![a, 1]⟩ : Shape).Broadcasts ⟨2, ![a, k]⟩)
    (hb : ψ.bits < FTy.f32.bits) (p : Fin a) (q : Fin n) :
    FloatOps.matmul (⟨[1], [0], [0], [1], [], [], w⟩ : DotDims _ _ _) prec
        (truncf ψ (mulf X (broadcastTo ⟨2, ![a, k]⟩ (shapeCast ⟨2, ![a, 1]⟩ v h1) h2)) hb) (truncf ψ W hb)
        (constant ⟨2, ![a, n]⟩ .f32 0x00000000#32) (ix2 p q)
      = ∑ l : Fin k, (X (ix2 p l) * v (ix2 p (0 : Fin 1))) * W (ix2 l q) := by
  rw [DenseLayer.matmul_rows_apply]
  refine Finset.sum_congr rfl fun l _ => ?_
  rw [truncf_apply, truncf_apply, mulf_apply, RowOps.broadcastTo_a1_ab_apply, shapeCast_self]

/-- The host's spelling: rows scaled by a column laid along axes 0 and 1, the product taken directly, read at
    `(p, q)`. -/
theorem dotGeneral_scaled_apply
    (w : DotDims.WF ⟨2, ![a, k]⟩ ⟨2, ![k, n]⟩ ⟨2, ![a, n]⟩ [1] [0] [0] [1] [] [])
    (prec : Option ContractPrecision) (sched : HostSchedule)
    (X : FVec Ideal ⟨2, ![a, k]⟩ .f32) (v : FVec Ideal ⟨2, ![a, 1]⟩ .f32) (W : FVec Ideal ⟨2, ![k, n]⟩ .f32)
    (h : (⟨2, ![a, 1]⟩ : Shape).BroadcastsInDim ⟨2, ![a, k]⟩ ![0, 1]) (p : Fin a) (q : Fin n) :
    FloatOps.dotGeneral (⟨[1], [0], [0], [1], [], [], w⟩ : DotDims _ _ _) prec sched
        (mulf X (broadcastInDim ⟨2, ![a, k]⟩ ![0, 1] h v)) W (ix2 p q)
      = ∑ l : Fin k, (X (ix2 p l) * v (ix2 p (0 : Fin 1))) * W (ix2 l q) := by
  rw [DenseLayer.dotGeneral_rows_apply]
  refine Finset.sum_congr rfl fun l _ => ?_
  rw [mulf_apply, broadcastInDim_a1_ab_apply]

end Idealize.ShloMosaic.ScaledRows

end
-- ==== Proof.RowScaling.lean ====
/-
  Scaling the rows of a matrix by a column, and the product of such a scaled matrix with a second matrix, as
  whole-array functions on the extended reals; and the three identities that join the two spellings of a
  normalised graph convolution.

  For an a×k matrix X and a column s of a entries, `scaleRows X s` has entry (p, l) equal to X(p, l)·s(p).
  For a k×n matrix W, `scaledProduct X s W` has entry (p, q) equal to Σ_l (X(p, l)·s(p))·W(l, q).

  One spelling keeps the column as a reshaped vector and multiplies by it once, possibly after multiplying two
  such columns together; the other broadcasts the vector to a column and then along the rows and multiplies
  twice. Entry by entry the two agree: the reshaped vector and the broadcast vector read the same entry, and
  (y·a)·b = y·(a·b) holds for all extended reals, infinite ones included, since multiplication there is
  associative.
-/
import Idealize.ShloMosaic.PureOps.Ideal.Laws
import Idealize.ShloMosaic.Lib.ValueIdx
import Idealize.ShloMosaic.Lib.Pipeline.Value
import proofs.«122123_j17394617548983_1_alg».proof.Proof.LibRowOps
import proofs.«122123_j17394617548983_1_alg».proof.Proof.LibDenseLayer
import proofs.«122123_j17394617548983_1_alg».proof.Proof.LibScaledRows

noncomputable section

namespace Cert.RowScaling

open Idealize.ShloMosaic Idealize.ShloMosaic.ValueIdx

variable {a k n : ℕ}

/-- Row `p` of `X` multiplied by entry `p` of the column `s`. -/
def scaleRows (X : (⟨2, ![a, k]⟩ : Shape).Idx → EReal) (s : (⟨2, ![a, 1]⟩ : Shape).Idx → EReal) :
    (⟨2, ![a, k]⟩ : Shape).Idx → EReal :=
  fun i => X i * s (ix2 (i 0) (0 : Fin 1))

/-- The rows of `X` scaled by the column `s`, then multiplied by `W`. -/
def scaledProduct (X : (⟨2, ![a, k]⟩ : Shape).Idx → EReal) (s : (⟨2, ![a, 1]⟩ : Shape).Idx → EReal)
    (W : (⟨2, ![k, n]⟩ : Shape).Idx → EReal) : (⟨2, ![a, n]⟩ : Shape).Idx → EReal :=
  fun i => ∑ l : Fin k, (X (ix2 (i 0) l) * s (ix2 (i 0) (0 : Fin 1))) * W (ix2 l (i 1))

theorem scaleRows_apply (X : (⟨2, ![a, k]⟩ : Shape).Idx → EReal) (s : (⟨2, ![a, 1]⟩ : Shape).Idx → EReal)
    (p : Fin a) (l : Fin k) : scaleRows X s (ix2 p l) = X (ix2 p l) * s (ix2 p (0 : Fin 1)) := rfl

theorem scaledProduct_apply (X : (⟨2, ![a, k]⟩ : Shape).Idx → EReal) (s : (⟨2, ![a, 1]⟩ : Shape).Idx → EReal)
    (W : (⟨2, ![k, n]⟩ : Shape).Idx → EReal) (p : Fin a) (q : Fin n) :
    scaledProduct X s W (ix2 p q) = ∑ l : Fin k, (X (ix2 p l) * s (ix2 p (0 : Fin 1))) * W (ix2 l q) := rfl

/-- A vector `[a]` laid along axis 0 of a column `[a, 1]` reads, at `(p, u)`, the vector's entry `p`. -/
theorem broadcastInDim_vec_col_apply {α : Type} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The reshaped vector and the broadcast vector are the same column. -/
theorem column_eq (v : (⟨1, ![a]⟩ : Shape).Idx → EReal) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨p, u, rfl⟩ : ∃ (p : Fin a) (u : Fin 1), j = ix2 p u := ⟨j 0, j 1, eq_ix2 j⟩
  rw [RowOps.shapeCast_a_a1_apply, broadcastInDim_vec_col_apply]

/-- Scaling the rows by a column is the product with that column laid along the rows. -/
theorem scaleRows_eq_mulf (X : FVec Ideal ⟨2, ![a, k]⟩ .f32) (s : FVec Ideal ⟨2, ![a, 1]⟩ .f32)
    (h : (⟨2, ![a, 1]⟩ : Shape).BroadcastsInDim ⟨2, ![a, k]⟩ ![0, 1]) :
    scaleRows X s = mulf X (broadcastInDim ⟨2, ![a, k]⟩ ![0, 1] h s) := by
  funext j
  obtain ⟨p, l, rfl⟩ : ∃ (p : Fin a) (l : Fin k), j = ix2 p l := ⟨j 0, j 1, eq_ix2 j⟩
  rw [scaleRows_apply, mulf_apply, ScaledRows.broadcastInDim_a1_ab_apply]

/-- Scaling by the product of two columns is scaling by one and then by the other: multiplication of extended
    reals is associative. -/
theorem scaleRows_mulf (X : FVec Ideal ⟨2, ![a, k]⟩ .f32) (s t : FVec Ideal ⟨2, ![a, 1]⟩ .f32) :
    scaleRows X (mulf s t) = scaleRows (scaleRows X s) t := by
  funext j
  obtain ⟨p, l, rfl⟩ : ∃ (p : Fin a) (l : Fin k), j = ix2 p l := ⟨j 0, j 1, eq_ix2 j⟩
  rw [scaleRows_apply, scaleRows_apply, scaleRows_apply, mulf_apply, mul_assoc]

/-- The host's product of the row-scaled matrix with `W` is `scaledProduct`. -/
theorem dotGeneral_eq_scaledProduct
    (w : DotDims.WF ⟨2, ![a, k]⟩ ⟨2, ![k, n]⟩ ⟨2, ![a, n]⟩ [1] [0] [0] [1] [] [])
    (prec : Option ContractPrecision)
    (X : FVec Ideal ⟨2, ![a, k]⟩ .f32) (s : FVec Ideal ⟨2, ![a, 1]⟩ .f32) (W : FVec Ideal ⟨2, ![k, n]⟩ .f32)
    (h : (⟨2, ![a, 1]⟩ : Shape).BroadcastsInDim ⟨2, ![a, k]⟩ ![0, 1]) :
    Host.dotGeneral (⟨[1], [0], [0], [1], [], [], w⟩ : DotDims _ _ _) prec
        (mulf X (broadcastInDim ⟨2, ![a, k]⟩ ![0, 1] h s)) W = scaledProduct X s W := by
  funext j
  obtain ⟨p, q, rfl⟩ : ∃ (p : Fin a) (q : Fin n), j = ix2 p q := ⟨j 0, j 1, eq_ix2 j⟩
  rw [scaledProduct_apply]
  exact ScaledRows.dotGeneral_scaled_apply w prec .single X s W h p q

/-- Two rounds of a normalised aggregation followed by a dense layer, for ANY aggregation map `A`. One spelling
    keeps each degree vector as a reshaped column, scales once before the first round, once by the product of the
    two columns between the rounds, and folds the last scaling into the product with `W`. The other broadcasts each
    degree vector to a column and along the rows, scales before and after each round, and multiplies by `W` at the
    end. They agree: the columns are the same, scaling by a product of columns is scaling twice, and the scaled
    product is the product of the scaled matrix. -/
theorem two_rounds_eq (A : ((⟨2, ![a, k]⟩ : Shape).Idx → EReal) → (⟨2, ![a, k]⟩ : Shape).Idx → EReal)
    (X : FVec Ideal ⟨2, ![a, k]⟩ .f32) (W : FVec Ideal ⟨2, ![k, n]⟩ .f32)
    (ds dr : FVec Ideal ⟨1, ![a]⟩ .f32)
    (hc : (⟨1, ![a]⟩ : Shape).ShapeCasts ⟨2, ![a, 1]⟩)
    (hb1 : (⟨1, ![a]⟩ : Shape).BroadcastsInDim ⟨2, ![a, 1]⟩ ![0])
    (hb2 : (⟨2, ![a, 1]⟩ : Shape).BroadcastsInDim ⟨2, ![a, k]⟩ ![0, 1])
    (w : DotDims.WF ⟨2, ![a, k]⟩ ⟨2, ![k, n]⟩ ⟨2, ![a, n]⟩ [1] [0] [0] [1] [] []) (prec : Option ContractPrecision) :
    scaledProduct
        (A (scaleRows (A (scaleRows X (shapeCast ⟨2, ![a, 1]⟩ ds hc)))
          (mulf (F := Ideal) (φ := .f32) (shapeCast ⟨2, ![a, 1]⟩ dr hc) (shapeCast ⟨2, ![a, 1]⟩ ds hc))))
        (shapeCast ⟨2, ![a, 1]⟩ dr hc) W
      = Host.dotGeneral (⟨[1], [0], [0], [1], [], [], w⟩ : DotDims _ _ _) prec
          (mulf (F := Ideal) (φ := .f32)
            (A (mulf (F := Ideal) (φ := .f32)
              (mulf (F := Ideal) (φ := .f32)
                (A (mulf (F := Ideal) (φ := .f32) X
                  (broadcastInDim ⟨2, ![a, k]⟩ ![0, 1] hb2 (broadcastInDim ⟨2, ![a, 1]⟩ ![0] hb1 ds))))
                (broadcastInDim ⟨2, ![a, k]⟩ ![0, 1] hb2 (broadcastInDim ⟨2, ![a, 1]⟩ ![0] hb1 dr)))
              (broadcastInDim ⟨2, ![a, k]⟩ ![0, 1] hb2 (broadcastInDim ⟨2, ![a, 1]⟩ ![0] hb1 ds))))
            (broadcastInDim ⟨2, ![a, k]⟩ ![0, 1] hb2 (broadcastInDim ⟨2, ![a, 1]⟩ ![0] hb1 dr))) W := by
  rw [column_eq ds hc hb1, column_eq dr hc hb1, scaleRows_mulf, dotGeneral_eq_scaledProduct w prec _ _ _ hb2,
    scaleRows_eq_mulf _ _ hb2, scaleRows_eq_mulf _ _ hb2, scaleRows_eq_mulf _ _ hb2]

end Cert.RowScaling

end
-- ==== Proof.ScaleRegion0.lean ====
/-
  The first scaling region as a whole-array function.

  The region runs over five grid points; point t loads rows 20000·t … 20000·t + 19999 of the matrix and of the
  column, multiplies each row by its column entry, and writes the rows back to the same place in the output.
  Every row of the output lies in exactly one point's block, so after the region the output array is
  `scaleRows` of the two input arrays as the region found them.
-/
import proofs.«122123_j17394617548983_1_alg».proof.Proof.Gen.KernelIdeal.Frame
import proofs.«122123_j17394617548983_1_alg».proof.Proof.RowScaling
import Idealize.ShloMosaic.Lib.Pipeline.Value

set_option maxRecDepth 16384

noncomputable section

namespace Cert.KernelIdeal.ScaleRegion0

open Cert.KernelIdeal Cert.KernelIdeal.Gen Cert.RowScaling
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The matrix the region reads, at its literal type. -/
abbrev mat (c : Dev nD) : S100000x80.Idx → EReal := V c main_arg0
/-- The column the region reads, at its literal type. -/
abbrev col (c : Dev nD) : S100000x1.Idx → EReal := V c main_v13

theorem origin : (![0, 0] : Fin 2 → Nat) = fun _ => 0 := funext fun a => by fin_cases a <;> rfl

/-- The body's value: each row of the loaded block times its entry of the loaded column. -/
theorem payload_eq (x0 : Vec Ideal S20000x80 .f32) (x1 : Vec Ideal S20000x1 .f32) :
    k0_pay1 x0 x1 = scaleRows (a := 20000) (k := 80) x0 x1 := by
  funext j
  obtain ⟨p, l, rfl⟩ : ∃ (p : Fin 20000) (l : Fin 80), j = ix2 p l := ⟨j 0, j 1, eq_ix2 j⟩
  unfold k0_pay1
  refine (mulf_apply (s := S20000x80) (φ := .f32) _ _ _).trans ?_
  rw [scaleRows_apply]
  refine congrArg (fun z : EReal => x0 (ix2 p l) * z) ?_
  refine (RowOps.broadcastTo_a1_ab_apply _ _ p l).trans ?_
  rw [shapeCast_self]

/-- The printed index maps over the grid: all three windows sit at block row `t`, block column 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `scaleRows` of the arrays the region found. -/
theorem flushed_eq (c : Dev nD) (t : Fin cfg0.N) :
    (dat0 V c).flushed 2 t = ((cfg0.win 2).blk t).view.read (Elt Ideal) (scaleRows (mat V c) (col V c)) := by
  show (cfg0.win 2).cut (grid0.coords t) ((dat0 V c).after 2 t) = _
  rw [after0_2]
  unfold out0_2
  rw [View.canon_unit_zero origin]
  simp only [View.ld_unit_zero (S := S20000x80) origin, View.ld_unit_zero (S := S20000x1) origin]
  rw [payload_eq]
  obtain ⟨e0, e1, e2, e3, e4, e5⟩ := index_facts t
  funext j
  show mat V c (((cfg0.win 0).blk t).view.emb j) * col V c (((cfg0.win 1).blk t).view.emb (ix2 (j 0) (0 : Fin 1)))
    = mat V c (((cfg0.win 2).blk t).view.emb j) * col V c (ix2 ((((cfg0.win 2).blk t).view.emb j) 0) (0 : Fin 1))
  have h0 : ((cfg0.win 0).blk t).view.emb j = ((cfg0.win 2).blk t).view.emb j := by
    funext a; apply Fin.ext
    match a with
    | ⟨0, _⟩ => show win0_0.index t (0 : Fin 2) * 20000 + 1 * (j 0).val = win0_2.index t (0 : Fin 2) * 20000 + 1 * (j 0).val; omega
    | ⟨1, _⟩ => show win0_0.index t (1 : Fin 2) * 80 + 1 * (j 1).val = win0_2.index t (1 : Fin 2) * 80 + 1 * (j 1).val; omega
  have h1 : ((cfg0.win 1).blk t).view.emb (ix2 (j 0) (0 : Fin 1)) = ix2 ((((cfg0.win 2).blk t).view.emb j) 0) (0 : Fin 1) := by
    funext a; apply Fin.ext
    match a with
    | ⟨0, _⟩ => show win0_1.index t (0 : Fin 2) * 20000 + 1 * (j 0).val = win0_2.index t (0 : Fin 2) * 20000 + 1 * (j 0).val; omega
    | ⟨1, _⟩ => show win0_1.index t (1 : Fin 2) * 1 + 1 * 0 = 0; omega
  rw [h0, h1]
  rfl

/-- An index of the output array is in point `t`'s block iff each coordinate is in the block's range. -/
theorem mem_block (t : Fin cfg0.N) (i : S100000x80.Idx) :
    i ∈ ((cfg0.win 2).blk t).view.set ↔ ∀ a : Fin 2, win0_2.index t a * S20000x80.size a ≤ (i a).val ∧ (i a).val < win0_2.index t a * S20000x80.size a + S20000x80.size a := by
  show i ∈ ((View.whole main_v19).slice (win0_2.rect t)).set ↔ _
  rw [View.set_slice_whole, Rect.mem_set_unit]
  exact Iff.rfl

/-- Every index of the output array is in the block of the point that holds its row. -/
theorem covered (i : S100000x80.Idx) :
    ∃ t : Fin cfg0.N, (cfg0.win 2).flush t = true ∧ i ∈ ((cfg0.win 2).blk t).view.set := by
  have hi0 : (i 0).val < 100000 := (i 0).isLt
  have hi1 : (i 1).val < 80 := (i 1).isLt
  have hN : cfg0.N = 5 := N_0
  refine ⟨⟨(i 0).val / 20000, by rw [hN]; omega⟩, flush0_2 _, ?_⟩
  rw [mem_block]
  obtain ⟨-, -, -, -, e4, e5⟩ := index_facts ⟨(i 0).val / 20000, by rw [hN]; omega⟩
  intro a
  match a with
  | ⟨0, _⟩ => show win0_2.index _ (0 : Fin 2) * 20000 ≤ (i 0).val ∧ (i 0).val < win0_2.index _ (0 : Fin 2) * 20000 + 20000; rw [e4]; show (i 0).val / 20000 * 20000 ≤ (i 0).val ∧ (i 0).val < (i 0).val / 20000 * 20000 + 20000; omega
  | ⟨1, _⟩ => show win0_2.index _ (1 : Fin 2) * 80 ≤ (i 1).val ∧ (i 1).val < win0_2.index _ (1 : Fin 2) * 80 + 80; rw [e5]; omega

/-- The output array after the region. -/
theorem array_eq (c : Dev nD) :
    (dat0 V c).arrAt 2 cfg0.N = scaleRows (mat V c) (col V c) :=
  (dat0 V c).arrAt_eq_of_cover 2 (scaleRows (mat V c) (col V c)) (fun t _ => flushed_eq V c t) covered

end Cert.KernelIdeal.ScaleRegion0

end
-- ==== Proof.ScaleRegion1.lean ====
/-
  The second scaling region as a whole-array function.

  The same kernel as the first scaling region, launched on the aggregated features and on the product of the two
  degree columns: point t of five loads rows 20000·t … 20000·t + 19999 of the matrix and of the column, multiplies
  each row by its column entry, and writes the rows back to the same place. Every row of the output lies in exactly
  one point's block, so after the region the output array is `scaleRows` of the two input arrays as the region
  found them.
-/
import proofs.«122123_j17394617548983_1_alg».proof.Proof.Gen.KernelIdeal.Frame
import proofs.«122123_j17394617548983_1_alg».proof.Proof.RowScaling
import Idealize.ShloMosaic.Lib.Pipeline.Value

set_option maxRecDepth 16384

noncomputable section

namespace Cert.KernelIdeal.ScaleRegion1

open Cert.KernelIdeal Cert.KernelIdeal.Gen Cert.RowScaling
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The matrix the region reads (the first aggregation's result), at its literal type. -/
abbrev mat (c : Dev nD) : S100000x80.Idx → EReal := V c main_v29
/-- The column the region reads (the product of the two degree columns), at its literal type. -/
abbrev col (c : Dev nD) : S100000x1.Idx → EReal := V c main_v18

theorem origin : (![0, 0] : Fin 2 → Nat) = fun _ => 0 := funext fun a => by fin_cases a <;> rfl

/-- The body's value: each row of the loaded block times its entry of the loaded column (the cast of the block to
    its own shape changes nothing). -/
theorem payload_eq (x0 : Vec Ideal S20000x80 .f32) (x1 : Vec Ideal S20000x1 .f32) :
    k1_pay1 x0 x1 = scaleRows (a := 20000) (k := 80) x0 x1 := by
  funext j
  obtain ⟨p, l, rfl⟩ : ∃ (p : Fin 20000) (l : Fin 80), j = ix2 p l := ⟨j 0, j 1, eq_ix2 j⟩
  unfold k1_pay1
  refine (mulf_apply (s := S20000x80) (φ := .f32) _ _ _).trans ?_
  rw [scaleRows_apply]
  refine congrArg₂ (fun y z : EReal => y * z) ?_ ?_
  · rw [shapeCast_self]
  · refine (RowOps.broadcastTo_a1_ab_apply _ _ p l).trans ?_
    rw [shapeCast_self]

/-- The printed index maps over the grid: all three windows sit at block row `t`, block column 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `scaleRows` of the arrays the region found. -/
theorem flushed_eq (c : Dev nD) (t : Fin cfg1.N) :
    (dat1 V c).flushed 2 t = ((cfg1.win 2).blk t).view.read (Elt Ideal) (scaleRows (mat V c) (col V c)) := by
  show (cfg1.win 2).cut (grid1.coords t) ((dat1 V c).after 2 t) = _
  rw [after1_2]
  unfold out1_2
  rw [View.canon_unit_zero origin]
  simp only [View.ld_unit_zero (S := S20000x80) origin, View.ld_unit_zero (S := S20000x1) origin]
  rw [payload_eq]
  obtain ⟨e0, e1, e2, e3, e4, e5⟩ := index_facts t
  funext j
  show mat V c (((cfg1.win 0).blk t).view.emb j) * col V c (((cfg1.win 1).blk t).view.emb (ix2 (j 0) (0 : Fin 1)))
    = mat V c (((cfg1.win 2).blk t).view.emb j) * col V c (ix2 ((((cfg1.win 2).blk t).view.emb j) 0) (0 : Fin 1))
  have h0 : ((cfg1.win 0).blk t).view.emb j = ((cfg1.win 2).blk t).view.emb j := by
    funext a; apply Fin.ext
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 80 + 1 * (j 1).val = win1_2.index t (1 : Fin 2) * 80 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 20000 + 1 * (j 0).val = win1_2.index t (0 : Fin 2) * 20000 + 1 * (j 0).val; omega
    | ⟨1, _⟩ => show win1_1.index t (1 : Fin 2) * 1 + 1 * 0 = 0; omega
  rw [h0, h1]
  rfl

/-- An index of the output array is in point `t`'s block iff each coordinate is in the block's range. -/
theorem mem_block (t : Fin cfg1.N) (i : S100000x80.Idx) :
    i ∈ ((cfg1.win 2).blk t).view.set ↔ ∀ a : Fin 2, win1_2.index t a * S20000x80.size a ≤ (i a).val ∧ (i a).val < win1_2.index t a * S20000x80.size a + S20000x80.size a := by
  show i ∈ ((View.whole main_v30).slice (win1_2.rect t)).set ↔ _
  rw [View.set_slice_whole, Rect.mem_set_unit]
  exact Iff.rfl

/-- Every index of the output array is in the block of the point that holds its row. -/
theorem covered (i : S100000x80.Idx) :
    ∃ t : Fin cfg1.N, (cfg1.win 2).flush t = true ∧ i ∈ ((cfg1.win 2).blk t).view.set := by
  have hi0 : (i 0).val < 100000 := (i 0).isLt
  have hi1 : (i 1).val < 80 := (i 1).isLt
  have hN : cfg1.N = 5 := N_1
  refine ⟨⟨(i 0).val / 20000, by rw [hN]; omega⟩, flush1_2 _, ?_⟩
  rw [mem_block]
  obtain ⟨-, -, -, -, e4, e5⟩ := index_facts ⟨(i 0).val / 20000, by rw [hN]; omega⟩
  intro a
  match a with
  | ⟨0, _⟩ => show win1_2.index _ (0 : Fin 2) * 20000 ≤ (i 0).val ∧ (i 0).val < win1_2.index _ (0 : Fin 2) * 20000 + 20000; rw [e4]; show (i 0).val / 20000 * 20000 ≤ (i 0).val ∧ (i 0).val < (i 0).val / 20000 * 20000 + 20000; omega
  | ⟨1, _⟩ => show win1_2.index _ (1 : Fin 2) * 80 ≤ (i 1).val ∧ (i 1).val < win1_2.index _ (1 : Fin 2) * 80 + 80; rw [e5]; omega

/-- The output array after the region. -/
theorem array_eq (c : Dev nD) :
    (dat1 V c).arrAt 2 cfg1.N = scaleRows (mat V c) (col V c) :=
  (dat1 V c).arrAt_eq_of_cover 2 (scaleRows (mat V c) (col V c)) (fun t _ => flushed_eq V c t) covered

end Cert.KernelIdeal.ScaleRegion1

end
-- ==== Proof.ProductRegion.lean ====
/-
  The product region as a whole-array function.

  Point t of five loads rows 20000·t … 20000·t + 19999 of the feature matrix and of the degree column and the whole
  80×40 weight matrix, scales each loaded row by its column entry, rounds both operands to a narrower format (the
  identity on the extended reals) and multiplies into a zero accumulator; the 20000×40 result goes back to rows
  20000·t … of the output. Entry (p, q) of a block is Σ_l (X(p, l)·s(p))·W(l, q) over the loaded rows, which is the
  entry of `scaledProduct` of the whole arrays at the block's place. Every row of the output lies in exactly one
  point's block, so after the region the output array is `scaledProduct` of the three input arrays as found.
-/
import proofs.«122123_j17394617548983_1_alg».proof.Proof.Gen.KernelIdeal.Frame
import proofs.«122123_j17394617548983_1_alg».proof.Proof.RowScaling
import Idealize.ShloMosaic.Lib.Pipeline.Value

set_option maxRecDepth 16384

noncomputable section

namespace Cert.KernelIdeal.ProductRegion

open Cert.KernelIdeal Cert.KernelIdeal.Gen Cert.RowScaling
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The feature matrix the region reads (the second aggregation's result), at its literal type. -/
abbrev mat (c : Dev nD) : S100000x80.Idx → EReal := V c main_v40
/-- The receiver-degree column the region reads, at its literal type. -/
abbrev col (c : Dev nD) : S100000x1.Idx → EReal := V c main_v17
/-- The weight matrix the region reads, at its literal type. -/
abbrev wts (c : Dev nD) : S80x40.Idx → EReal := V c main_arg3

theorem origin : (![0, 0] : Fin 2 → Nat) = fun _ => 0 := funext fun a => by fin_cases a <;> rfl

/-- The body's value: the loaded rows scaled by the loaded column entries, times the loaded weights. -/
theorem payload_eq (x0 : Vec Ideal S20000x80 .f32) (x1 : Vec Ideal S20000x1 .f32) (x2 : Vec Ideal S80x40 .f32) :
    k2_pay1 x0 x1 x2 = scaledProduct (a := 20000) (k := 80) (n := 40) x0 x1 x2 := by
  funext j
  obtain ⟨p, q, rfl⟩ : ∃ (p : Fin 20000) (q : Fin 40), j = ix2 p q := ⟨j 0, j 1, eq_ix2 j⟩
  unfold k2_pay1
  refine (ScaledRows.matmul_scaled_apply (ψ := .bf16) dot_S20000x80_S80x40_S20000x40_1_0_0_1_n_n_wf none
    (shapeCast S20000x80 x0 shapeCasts_S20000x80_S20000x80) x1 x2 shapeCasts_S20000x1_S20000x1
    broadcasts_S20000x1_S20000x80 bitsLt_bf16_f32 p q).trans ?_
  rw [scaledProduct_apply]
  refine Finset.sum_congr rfl fun l _ => ?_
  rw [shapeCast_self]

/-- The printed index maps over the grid: the row-blocked windows sit at block row `t`, block column 0; the weight
    window stays at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `scaledProduct` of the arrays the region found. -/
theorem flushed_eq (c : Dev nD) (t : Fin cfg2.N) :
    (dat2 V c).flushed 3 t
      = ((cfg2.win 3).blk t).view.read (Elt Ideal) (scaledProduct (mat V c) (col V c) (wts V c)) := by
  show (cfg2.win 3).cut (grid2.coords t) ((dat2 V c).after 3 t) = _
  rw [after2_3]
  unfold out2_3
  rw [View.canon_unit_zero origin]
  simp only [View.ld_unit_zero (S := S20000x80) origin, View.ld_unit_zero (S := S20000x1) origin,
    View.ld_unit_zero (S := S80x40) origin]
  rw [payload_eq]
  obtain ⟨e0, e1, e2, e3, e4, e5, e6, e7⟩ := index_facts t
  funext j
  show ∑ l : Fin 80, (mat V c (((cfg2.win 0).blk t).view.emb (ix2 (j 0) l))
        * col V c (((cfg2.win 1).blk t).view.emb (ix2 (j 0) (0 : Fin 1))))
        * wts V c (((cfg2.win 2).blk t).view.emb (ix2 l (j 1)))
    = ∑ l : Fin 80, (mat V c (ix2 ((((cfg2.win 3).blk t).view.emb j) 0) l)
        * col V c (ix2 ((((cfg2.win 3).blk t).view.emb j) 0) (0 : Fin 1)))
        * wts V c (ix2 l ((((cfg2.win 3).blk t).view.emb j) 1))
  have hj1 : (j 1).val < 40 := (j 1).isLt
  have h0 : ∀ l : Fin 80, ((cfg2.win 0).blk t).view.emb (ix2 (j 0) l) = ix2 ((((cfg2.win 3).blk t).view.emb j) 0) l := by
    intro l
    funext a; apply Fin.ext
    match a with
    | ⟨0, _⟩ => show win2_0.index t (0 : Fin 2) * 20000 + 1 * (j 0).val = win2_3.index t (0 : Fin 2) * 20000 + 1 * (j 0).val; omega
    | ⟨1, _⟩ => show win2_0.index t (1 : Fin 2) * 80 + 1 * l.val = l.val; omega
  have h1 : ((cfg2.win 1).blk t).view.emb (ix2 (j 0) (0 : Fin 1)) = ix2 ((((cfg2.win 3).blk t).view.emb j) 0) (0 : Fin 1) := by
    funext a; apply Fin.ext
    match a with
    | ⟨0, _⟩ => show win2_1.index t (0 : Fin 2) * 20000 + 1 * (j 0).val = win2_3.index t (0 : Fin 2) * 20000 + 1 * (j 0).val; omega
    | ⟨1, _⟩ => show win2_1.index t (1 : Fin 2) * 1 + 1 * 0 = 0; omega
  have h2 : ∀ l : Fin 80, ((cfg2.win 2).blk t).view.emb (ix2 l (j 1)) = ix2 l ((((cfg2.win 3).blk t).view.emb j) 1) := by
    intro l
    funext a; apply Fin.ext
    match a with
    | ⟨0, _⟩ => show win2_2.index t (0 : Fin 2) * 80 + 1 * l.val = l.val; omega
    | ⟨1, _⟩ => show win2_2.index t (1 : Fin 2) * 40 + 1 * (j 1).val = win2_3.index t (1 : Fin 2) * 40 + 1 * (j 1).val; omega
  refine Finset.sum_congr rfl fun l _ => ?_
  rw [h0 l, h1, h2 l]
  rfl

/-- An index of the output array is in point `t`'s block iff each coordinate is in the block's range. -/
theorem mem_block (t : Fin cfg2.N) (i : S100000x40.Idx) :
    i ∈ ((cfg2.win 3).blk t).view.set ↔ ∀ a : Fin 2, win2_3.index t a * S20000x40.size a ≤ (i a).val ∧ (i a).val < win2_3.index t a * S20000x40.size a + S20000x40.size a := by
  show i ∈ ((View.whole main_v41).slice (win2_3.rect t)).set ↔ _
  rw [View.set_slice_whole, Rect.mem_set_unit]
  exact Iff.rfl

/-- Every index of the output array is in the block of the point that holds its row. -/
theorem covered (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 5 := N_2
  refine ⟨⟨(i 0).val / 20000, by rw [hN]; omega⟩, flush2_3 _, ?_⟩
  rw [mem_block]
  obtain ⟨-, -, -, -, -, -, e6, e7⟩ := index_facts ⟨(i 0).val / 20000, by rw [hN]; omega⟩
  intro a
  match a with
  | ⟨0, _⟩ => show win2_3.index _ (0 : Fin 2) * 20000 ≤ (i 0).val ∧ (i 0).val < win2_3.index _ (0 : Fin 2) * 20000 + 20000; rw [e6]; show (i 0).val / 20000 * 20000 ≤ (i 0).val ∧ (i 0).val < (i 0).val / 20000 * 20000 + 20000; omega
  | ⟨1, _⟩ => show win2_3.index _ (1 : Fin 2) * 40 ≤ (i 1).val ∧ (i 1).val < win2_3.index _ (1 : Fin 2) * 40 + 40; rw [e7]; omega

/-- The output array after the region. -/
theorem array_eq (c : Dev nD) :
    (dat2 V c).arrAt 3 cfg2.N = scaledProduct (mat V c) (col V c) (wts V c) :=
  (dat2 V c).arrAt_eq_of_cover 3 (scaledProduct (mat V c) (col V c) (wts V c)) (fun t _ => flushed_eq V c t) covered

end Cert.KernelIdeal.ProductRegion

end
-- ==== Proof.KernelResult.lean ====
/-
  The idealized kernel's result array as one term of the launch memory.

  The program alternates three stretches of host operations with three kernel regions. The first stretch appends a
  self loop for every node to the sender and receiver index words, counts how often each node is named (a
  scatter-add of ones), and forms the two columns 1/sqrt(max(degree, 1)) and their product. Each of the next two
  stretches is one aggregation round: gather the feature rows by sender (a negative index word wrapped by the number
  of nodes) and scatter-add them by receiver. Read back from the last boundary through the regions' whole-array
  functions (`scaleRows`, `scaleRows`, `scaledProduct`) and the stretches' operations, the result is

    scaledProduct (A (scaleRows (A (scaleRows nodes cs)) (cr · cs))) cr weights

  with A the aggregation round, cs and cr the sender- and receiver-degree columns.
-/
import proofs.«122123_j17394617548983_1_alg».proof.Proof.Gen.KernelIdeal.Frame
import proofs.«122123_j17394617548983_1_alg».proof.Proof.ScaleRegion0
import proofs.«122123_j17394617548983_1_alg».proof.Proof.ScaleRegion1
import proofs.«122123_j17394617548983_1_alg».proof.Proof.ProductRegion
import Idealize.ShloMosaic.Lib.StableHlo.Run

set_option maxRecDepth 16384

noncomputable section

namespace Cert.KernelIdeal.Result

open Cert.KernelIdeal Cert.KernelIdeal.Gen Cert.RowScaling
open Idealize.ShloMosaic Idealize.ShloMosaic.TcCoe Idealize.ShloMosaic.StableHlo Idealize.SL.Sem

/-! ## The host operations' composed functions -/

/-- The edge index words with one self loop appended per node. -/
abbrev withSelfLoops (e : IVec S1000000 32) : IVec S1100000 32 :=
  concatenate S1100000 0 [⟨S1000000, e⟩, ⟨S100000, iotaInDim S100000 32 0⟩] concatenates_S1000000_S100000_S1100000_d0

/-- `1 / sqrt (max (degree, 1))`, the degree of a node being the number of index words that name it. -/
abbrev invSqrtDeg (idx : IVec S1100000 32) : FVec Ideal S100000 .f32 :=
  Host.rsqrt (maximumf
    (Host.scatterAdd scatter_S100000_S1100000x1_S1100000_n_0_0_1
      (broadcastInDim S100000 ![] bcast_S_S100000 (constant (F := Ideal) S_ .f32 0x00000000#32))
      (broadcastInDim S1100000x1 ![0] bcast_S1100000_S1100000x1_0 idx)
      (broadcastInDim S1100000 ![] bcast_S_S1100000 (constant (F := Ideal) S_ .f32 0x3F800000#32)))
    (broadcastInDim S100000 ![] bcast_S_S100000 (constant (F := Ideal) S_ .f32 0x3F800000#32)))

/-- The degree vector as a column. -/
abbrev degColumn (idx : IVec S1100000 32) : FVec Ideal S100000x1 .f32 :=
  shapeCast S100000x1 (invSqrtDeg idx) shapeCasts_S100000_S100000x1

/-- One aggregation round: the rows gathered by sender, scatter-added by receiver into zeros. -/
abbrev aggregate (snd rcv : IVec S1100000 32) (x : FVec Ideal S100000x80 .f32) : FVec Ideal S100000x80 .f32 :=
  Host.scatterAdd scatter_S100000x80_S1100000x1_S1100000x80_1_0_0_1
    (broadcastInDim S100000x80 ![] bcast_S_S100000x80 (constant (F := Ideal) S_ .f32 0x00000000#32))
    (broadcastInDim S1100000x1 ![0] bcast_S1100000_S1100000x1_0 rcv)
    (Host.gather gather_S100000x80_S1100000x1_S1100000x80_1_0_n_n_0_1_180 x
      (broadcastInDim S1100000x1 ![0] bcast_S1100000_S1100000x1_0
        (select (cmpi .slt snd (broadcastInDim S1100000 ![] bcast_S_S1100000 (constantI S_ 32 0#32)))
          (addi snd (broadcastInDim S1100000 ![] bcast_S_S1100000 (constantI S_ 32 100000#32))) snd)))

/-! ## Each stretch of host operations, from any contents -/

section Stretches
variable (Wp : Valuation τ sig (Elt Ideal))

theorem stretch0_snd : StableHlo.after hostOps0 Wp (Proc.devRef .tc main_v1)
    = withSelfLoops (Wp (Proc.devRef .tc main_arg1)) := by
  dsimp only [hostOps0]; after_results
theorem stretch0_rcv : StableHlo.after hostOps0 Wp (Proc.devRef .tc main_v2)
    = withSelfLoops (Wp (Proc.devRef .tc main_arg2)) := by
  dsimp only [hostOps0]; after_results
theorem stretch0_colS : StableHlo.after hostOps0 Wp (Proc.devRef .tc main_v13)
    = degColumn (withSelfLoops (Wp (Proc.devRef .tc main_arg1))) := by
  dsimp only [hostOps0]; after_results; rfl
theorem stretch0_colR : StableHlo.after hostOps0 Wp (Proc.devRef .tc main_v17)
    = degColumn (withSelfLoops (Wp (Proc.devRef .tc main_arg2))) := by
  dsimp only [hostOps0]; after_results; rfl
theorem stretch0_colRS : StableHlo.after hostOps0 Wp (Proc.devRef .tc main_v18)
    = mulf (F := Ideal) (φ := .f32) (degColumn (withSelfLoops (Wp (Proc.devRef .tc main_arg2))))
        (degColumn (withSelfLoops (Wp (Proc.devRef .tc main_arg1)))) := by
  dsimp only [hostOps0]; after_results_simp; rfl
theorem stretch0_nodes : StableHlo.after hostOps0 Wp (Proc.devRef .tc main_arg0) = Wp (Proc.devRef .tc main_arg0) := by
  dsimp only [hostOps0]; after_results
theorem stretch0_weights : StableHlo.after hostOps0 Wp (Proc.devRef .tc main_arg3) = Wp (Proc.devRef .tc main_arg3) := by
  dsimp only [hostOps0]; after_results

theorem stretch1_agg : StableHlo.after hostOps1 Wp (Proc.devRef .tc main_v29)
    = aggregate (Wp (Proc.devRef .tc main_v1)) (Wp (Proc.devRef .tc main_v2)) (Wp (Proc.devRef .tc main_v19)) := by
  dsimp only [hostOps1]; after_results
theorem stretch1_snd : StableHlo.after hostOps1 Wp (Proc.devRef .tc main_v1) = Wp (Proc.devRef .tc main_v1) := by
  dsimp only [hostOps1]; after_results
theorem stretch1_rcv : StableHlo.after hostOps1 Wp (Proc.devRef .tc main_v2) = Wp (Proc.devRef .tc main_v2) := by
  dsimp only [hostOps1]; after_results
theorem stretch1_colR : StableHlo.after hostOps1 Wp (Proc.devRef .tc main_v17) = Wp (Proc.devRef .tc main_v17) := by
  dsimp only [hostOps1]; after_results
theorem stretch1_colRS : StableHlo.after hostOps1 Wp (Proc.devRef .tc main_v18) = Wp (Proc.devRef .tc main_v18) := by
  dsimp only [hostOps1]; after_results
theorem stretch1_weights : StableHlo.after hostOps1 Wp (Proc.devRef .tc main_arg3) = Wp (Proc.devRef .tc main_arg3) := by
  dsimp only [hostOps1]; after_results

theorem stretch2_agg : StableHlo.after hostOps2 Wp (Proc.devRef .tc main_v40)
    = aggregate (Wp (Proc.devRef .tc main_v1)) (Wp (Proc.devRef .tc main_v2)) (Wp (Proc.devRef .tc main_v30)) := by
  dsimp only [hostOps2]; after_results
theorem stretch2_colR : StableHlo.after hostOps2 Wp (Proc.devRef .tc main_v17) = Wp (Proc.devRef .tc main_v17) := by
  dsimp only [hostOps2]; after_results
theorem stretch2_weights : StableHlo.after hostOps2 Wp (Proc.devRef .tc main_arg3) = Wp (Proc.devRef .tc main_arg3) := by
  dsimp only [hostOps2]; after_results

end Stretches

/-! ## The boundaries, from the launch memory -/

variable (m : (ℓ : Loc nD τ sig) → Buf (Elt Ideal) ℓ) (ρ : Dev nD → PrngReg)

/-- The sender index words with self loops. -/
abbrev snd (c : Dev nD) : IVec S1100000 32 := withSelfLoops (m ((c.tc : Thread nD τ).loc main_arg1))
/-- The receiver index words with self loops. -/
abbrev rcv (c : Dev nD) : IVec S1100000 32 := withSelfLoops (m ((c.tc : Thread nD τ).loc main_arg2))
/-- The node features. -/
abbrev nodes (c : Dev nD) : FVec Ideal S100000x80 .f32 := m ((c.tc : Thread nD τ).loc main_arg0)
/-- The dense layer's weights. -/
abbrev weights (c : Dev nD) : FVec Ideal S80x40 .f32 := m ((c.tc : Thread nD τ).loc main_arg3)

/-- The result array's value. -/
def value (c : Dev nD) : FVec Ideal S100000x40 .f32 :=
  scaledProduct
    (aggregate (snd m c) (rcv m c)
      (scaleRows (aggregate (snd m c) (rcv m c) (scaleRows (nodes m c) (degColumn (snd m c))))
        (mulf (F := Ideal) (φ := .f32) (degColumn (rcv m c)) (degColumn (snd m c)))))
    (degColumn (rcv m c)) (weights m c)

-- after the first stretch
theorem W1_snd (c : Dev nD) : W1 m ρ c (Proc.devRef .tc main_v1) = snd m c := stretch0_snd (W0 m ρ c)
theorem W1_rcv (c : Dev nD) : W1 m ρ c (Proc.devRef .tc main_v2) = rcv m c := stretch0_rcv (W0 m ρ c)
theorem W1_colS (c : Dev nD) : W1 m ρ c (Proc.devRef .tc main_v13) = degColumn (snd m c) := stretch0_colS (W0 m ρ c)
theorem W1_colR (c : Dev nD) : W1 m ρ c (Proc.devRef .tc main_v17) = degColumn (rcv m c) := stretch0_colR (W0 m ρ c)
theorem W1_colRS (c : Dev nD) : W1 m ρ c (Proc.devRef .tc main_v18)
    = mulf (F := Ideal) (φ := .f32) (degColumn (rcv m c)) (degColumn (snd m c)) := stretch0_colRS (W0 m ρ c)
theorem W1_nodes (c : Dev nD) : W1 m ρ c (Proc.devRef .tc main_arg0) = nodes m c := stretch0_nodes (W0 m ρ c)
theorem W1_weights (c : Dev nD) : W1 m ρ c (Proc.devRef .tc main_arg3) = weights m c := stretch0_weights (W0 m ρ c)

-- after the first region
theorem W2_scaled (c : Dev nD) : W2 m ρ c (Proc.devRef .tc main_v19) = scaleRows (nodes m c) (degColumn (snd m c)) := by
  refine (W2_arr m ρ c 2).trans ((ScaleRegion0.array_eq (V1 m ρ) c).trans ?_)
  show scaleRows (W1 m ρ c (Proc.devRef .tc main_arg0)) (W1 m ρ c (Proc.devRef .tc main_v13)) = _
  rw [W1_nodes, W1_colS]
theorem W2_snd (c : Dev nD) : W2 m ρ c (Proc.devRef .tc main_v1) = snd m c :=
  (W2_of_ne m ρ c main_v1 (by decide)).trans (W1_snd m ρ c)
theorem W2_rcv (c : Dev nD) : W2 m ρ c (Proc.devRef .tc main_v2) = rcv m c :=
  (W2_of_ne m ρ c main_v2 (by decide)).trans (W1_rcv m ρ c)
theorem W2_colR (c : Dev nD) : W2 m ρ c (Proc.devRef .tc main_v17) = degColumn (rcv m c) :=
  (W2_of_ne m ρ c main_v17 (by decide)).trans (W1_colR m ρ c)
theorem W2_colRS (c : Dev nD) : W2 m ρ c (Proc.devRef .tc main_v18)
    = mulf (F := Ideal) (φ := .f32) (degColumn (rcv m c)) (degColumn (snd m c)) :=
  (W2_of_ne m ρ c main_v18 (by decide)).trans (W1_colRS m ρ c)
theorem W2_weights (c : Dev nD) : W2 m ρ c (Proc.devRef .tc main_arg3) = weights m c :=
  (W2_of_ne m ρ c main_arg3 (by decide)).trans (W1_weights m ρ c)

-- after the second stretch
theorem W3_agg (c : Dev nD) : W3 m ρ c (Proc.devRef .tc main_v29)
    = aggregate (snd m c) (rcv m c) (scaleRows (nodes m c) (degColumn (snd m c))) := by
  refine (stretch1_agg (W2 m ρ c)).trans ?_
  rw [W2_snd, W2_rcv, W2_scaled]
theorem W3_snd (c : Dev nD) : W3 m ρ c (Proc.devRef .tc main_v1) = snd m c :=
  (stretch1_snd (W2 m ρ c)).trans (W2_snd m ρ c)
theorem W3_rcv (c : Dev nD) : W3 m ρ c (Proc.devRef .tc main_v2) = rcv m c :=
  (stretch1_rcv (W2 m ρ c)).trans (W2_rcv m ρ c)
theorem W3_colR (c : Dev nD) : W3 m ρ c (Proc.devRef .tc main_v17) = degColumn (rcv m c) :=
  (stretch1_colR (W2 m ρ c)).trans (W2_colR m ρ c)
theorem W3_colRS (c : Dev nD) : W3 m ρ c (Proc.devRef .tc main_v18)
    = mulf (F := Ideal) (φ := .f32) (degColumn (rcv m c)) (degColumn (snd m c)) :=
  (stretch1_colRS (W2 m ρ c)).trans (W2_colRS m ρ c)
theorem W3_weights (c : Dev nD) : W3 m ρ c (Proc.devRef .tc main_arg3) = weights m c :=
  (stretch1_weights (W2 m ρ c)).trans (W2_weights m ρ c)

-- after the second region
theorem W4_scaled (c : Dev nD) : W4 m ρ c (Proc.devRef .tc main_v30)
    = scaleRows (aggregate (snd m c) (rcv m c) (scaleRows (nodes m c) (degColumn (snd m c))))
        (mulf (F := Ideal) (φ := .f32) (degColumn (rcv m c)) (degColumn (snd m c))) := by
  refine (W4_arr m ρ c 2).trans ((ScaleRegion1.array_eq (V3 m ρ) c).trans ?_)
  show scaleRows (W3 m ρ c (Proc.devRef .tc main_v29)) (W3 m ρ c (Proc.devRef .tc main_v18)) = _
  rw [W3_agg, W3_colRS]
theorem W4_snd (c : Dev nD) : W4 m ρ c (Proc.devRef .tc main_v1) = snd m c :=
  (W4_of_ne m ρ c main_v1 (by decide)).trans (W3_snd m ρ c)
theorem W4_rcv (c : Dev nD) : W4 m ρ c (Proc.devRef .tc main_v2) = rcv m c :=
  (W4_of_ne m ρ c main_v2 (by decide)).trans (W3_rcv m ρ c)
theorem W4_colR (c : Dev nD) : W4 m ρ c (Proc.devRef .tc main_v17) = degColumn (rcv m c) :=
  (W4_of_ne m ρ c main_v17 (by decide)).trans (W3_colR m ρ c)
theorem W4_weights (c : Dev nD) : W4 m ρ c (Proc.devRef .tc main_arg3) = weights m c :=
  (W4_of_ne m ρ c main_arg3 (by decide)).trans (W3_weights m ρ c)

-- after the third stretch
theorem W5_agg (c : Dev nD) : W5 m ρ c (Proc.devRef .tc main_v40)
    = aggregate (snd m c) (rcv m c)
        (scaleRows (aggregate (snd m c) (rcv m c) (scaleRows (nodes m c) (degColumn (snd m c))))
          (mulf (F := Ideal) (φ := .f32) (degColumn (rcv m c)) (degColumn (snd m c)))) := by
  refine (stretch2_agg (W4 m ρ c)).trans ?_
  rw [W4_snd, W4_rcv, W4_scaled]
theorem W5_colR (c : Dev nD) : W5 m ρ c (Proc.devRef .tc main_v17) = degColumn (rcv m c) :=
  (stretch2_colR (W4 m ρ c)).trans (W4_colR m ρ c)
theorem W5_weights (c : Dev nD) : W5 m ρ c (Proc.devRef .tc main_arg3) = weights m c :=
  (stretch2_weights (W4 m ρ c)).trans (W4_weights m ρ c)

/-- After the third region the result array holds `value`. -/
theorem W6_result (c : Dev nD) : W6 m ρ c (Proc.devRef .tc main_v41) = value m c := by
  refine (W6_arr m ρ c 3).trans ((ProductRegion.array_eq (V5 m ρ) c).trans ?_)
  show scaledProduct (W5 m ρ c (Proc.devRef .tc main_v40)) (W5 m ρ c (Proc.devRef .tc main_v17))
    (W5 m ρ c (Proc.devRef .tc main_arg3)) = _
  rw [W5_agg, W5_colR, W5_weights]
  rfl

end Cert.KernelIdeal.Result

end
-- ==== Proof.Agreement.lean ====
/-
  The reference's result term is the kernel's value.

  The reference runs two rounds of `x ↦ (A (x · cs)) · cr` and multiplies by the weights, each degree vector broadcast
  to a column and along the rows; the kernel's value scales by the reshaped columns, fuses the two scalings between
  the rounds into one by the product of the columns, and folds the last scaling into the product with the weights.
  With the aggregation round `A` — the same gather by sender and scatter-add by receiver on both sides — taken as
  one map, this is `RowScaling.two_rounds_eq`; the memories agree on the four arguments.
-/
import proofs.«122123_j17394617548983_1_alg».proof.Defs
import proofs.«122123_j17394617548983_1_alg».proof.Proof.KernelResult
import proofs.«122123_j17394617548983_1_alg».proof.Proof.RowScaling
import proofs.«122123_j17394617548983_1_alg».proof.Proof.Gen.ReferenceIdeal.Run

set_option maxRecDepth 16384

noncomputable section

namespace Cert.Agreement

open Idealize.ShloMosaic Idealize.ShloMosaic.TcCoe Idealize.SL.Sem
open Cert.KernelIdeal.Result Cert.RowScaling

/-- From memories that agree on the four arguments, the reference's result term is the kernel's value. -/
theorem reference_eq_value
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Value.res_main_v64 m' c = value m c := by
  unfold Cert.ReferenceIdeal.Value.res_main_v64
  rw [h0, h1, h2, h3]
  exact (two_rounds_eq (a := 100000) (k := 80) (n := 40)
    (fun x => aggregate (snd m c) (rcv m c) x) (nodes m c) (weights m c)
    (invSqrtDeg (snd m c)) (invSqrtDeg (rcv m c))
    Cert.KernelIdeal.Facts₀.shapeCasts_S100000_S100000x1
    Cert.ReferenceIdeal.Facts₀.bcast_S100000_S100000x1_0
    Cert.ReferenceIdeal.Facts₀.bcast_S100000x1_S100000x80_0_1
    Cert.ReferenceIdeal.Facts₀.dot_S100000x80_S80x40_S100000x40_1_0_0_1_n_n_wf none).symm

end Cert.Agreement

end
-- ==== Proof.lean ====
/-
  The certificate of a two-round normalised graph convolution followed by a dense layer.

  The kernel computes, with A one aggregation round (gather the rows by sender, scatter-add by receiver) and cs, cr
  the columns 1/sqrt(max(degree, 1)) of the sender and receiver degrees,

      ((A ((A (x · cs)) · (cr · cs))) · cr) W,

  in three kernel regions (two row scalings and one scaled product) among host operations; the reference computes
  ((A (((A (x · cs)) · cr) · cs)) · cr) W on the host. On the extended reals the two are equal entry by entry:
  multiplication is associative there, so scaling by cr · cs is scaling by cr and then by cs; a change of float
  format is the identity; and the product into a zero accumulator and the host's product read the same sum. No law
  used needs the inputs to be finite, and the index words are read by the same host operations on both sides.

  The three frames are the generated ones (the reference's is its generated run with the result dropped), the
  idealization rewrote no operation, and the value claim joins the kernel's run, read back to `Result.value`, with
  the reference's run by `Agreement.reference_eq_value`.
-/
import proofs.«122123_j17394617548983_1_alg».proof.Defs
import proofs.«122123_j17394617548983_1_alg».proof.Proof.Gen.Kernel
import proofs.«122123_j17394617548983_1_alg».proof.Proof.Gen.Kernel.Skeleton
import proofs.«122123_j17394617548983_1_alg».proof.Proof.Gen.Kernel.Launch
import proofs.«122123_j17394617548983_1_alg».proof.Proof.Gen.Kernel.Points
import proofs.«122123_j17394617548983_1_alg».proof.Proof.Gen.Kernel.Frame
import proofs.«122123_j17394617548983_1_alg».proof.Proof.Gen.KernelIdeal
import proofs.«122123_j17394617548983_1_alg».proof.Proof.Gen.KernelIdeal.Skeleton
import proofs.«122123_j17394617548983_1_alg».proof.Proof.Gen.KernelIdeal.Launch
import proofs.«122123_j17394617548983_1_alg».proof.Proof.Gen.KernelIdeal.Points
import proofs.«122123_j17394617548983_1_alg».proof.Proof.Gen.KernelIdeal.Frame
import proofs.«122123_j17394617548983_1_alg».proof.Proof.Gen.ReferenceIdeal
import proofs.«122123_j17394617548983_1_alg».proof.Proof.Gen.ReferenceIdeal.Run
import proofs.«122123_j17394617548983_1_alg».proof.Proof.Gen.Pre_finite_inputs
import proofs.«122123_j17394617548983_1_alg».proof.Proof.KernelIdealRun
import proofs.«122123_j17394617548983_1_alg».proof.Proof.KernelResult
import proofs.«122123_j17394617548983_1_alg».proof.Proof.Agreement
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with `Result.value` of the kernel's launch memory in their result arrays. -/
theorem algebraic : Cert.algebraic_KernelIdeal_ReferenceIdeal := by
  intro m ρ m' ρ' _ hagree
  refine ⟨fun c => Cert.KernelIdeal.Result.value m c, ?_, ?_⟩
  · exact (θ_run Cert.KernelIdeal.defs _ _).mono
      (fun r h c => ⟨(h c).1.trans (Cert.KernelIdeal.Result.W6_result m ρ c), (h c).2⟩)
      (Cert.KernelIdeal.NamedRun.run_named (F := Ideal) m ρ)
  · exact (θ_run Cert.ReferenceIdeal.defs _ _).mono
      (fun r h c => ⟨(h c).1.trans (Cert.Agreement.reference_eq_value m m' c
          (hagree c).1 (hagree c).2.1 (hagree c).2.2.1 (hagree c).2.2.2), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
